-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 22
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeUpdate.lean ====
/-
  The node update of one graph-convolution layer, as ONE function of three arrays, index by index, on the extended reals.

  With `agg` the aggregated node features (100000 rows of 128), `W` the layer's weight (128 output rows of 128
  input features) and `b` its bias (128 entries), the layer's output at node `p`, output feature `q` is

      max (∑ k, agg[p, k] * W[q, k] + b[q]) 0

  — a row of `agg` against a ROW of `W` (the product with the transposed weight), the bias added, the negative part cut
  off. Nothing here depends on how `agg` was obtained: both programs compute it by the same gather and scatter-add of
  the same arguments, and the two sides differ only after it.
-/
import Idealize.ShloMosaic.PureOps.Ideal
import Idealize.ShloMosaic.Lib.ValueIdx

noncomputable section

namespace Cert.NodeUpdate

open Idealize.ShloMosaic Idealize.ShloMosaic.ValueIdx

/-- The aggregated features and the output: 100000 nodes by 128 features. -/
abbrev SNodes : Shape := ⟨2, ![100000, 128]⟩
/-- The weight: 128 output features by 128 input features. -/
abbrev SWeight : Shape := ⟨2, ![128, 128]⟩
/-- The bias: 128 output features. -/
abbrev SBias : Shape := ⟨1, ![128]⟩

/-- The layer's output at node `p`, output feature `q`: row `p` of `agg` against row `q` of `W`, plus `b q`, cut off at zero. -/
def entry (agg : FVec Ideal SNodes .f32) (W : FVec Ideal SWeight .f32) (b : FVec Ideal SBias .f32)
    (p : Fin 100000) (q : Fin 128) : EReal :=
  max ((∑ k : Fin 128, agg (ix2 p k) * W (ix2 q k)) + b (ix1 q)) 0

/-- The layer's output as a whole array: `entry` of an index's two coordinates. -/
def out (agg : FVec Ideal SNodes .f32) (W : FVec Ideal SWeight .f32) (b : FVec Ideal SBias .f32) : FVec Ideal SNodes .f32 :=
  fun i => entry agg W b ⟨(i 0).val, (i 0).isLt⟩ ⟨(i 1).val, (i 1).isLt⟩

/-- The whole array read at the index of coordinates `p`, `q`. -/
theorem out_ix2 (agg : FVec Ideal SNodes .f32) (W : FVec Ideal SWeight .f32) (b : FVec Ideal SBias .f32)
    (p : Fin 100000) (q : Fin 128) : out agg W b (ix2 p q) = entry agg W b p q := rfl

/-- The whole array read at ANY index whose two coordinates are known to be `p` and `q`. -/
theorem out_at (agg : FVec Ideal SNodes .f32) (W : FVec Ideal SWeight .f32) (b : FVec Ideal SBias .f32)
    (i : SNodes.Idx) (p : Fin 100000) (q : Fin 128) (h0 : (i 0).val = p.val) (h1 : (i 1).val = q.val) :
    out agg W b i = entry agg W b p q := by
  have hi : i = ix2 p q := funext fun a => Fin.ext (by match a with | ⟨0, _⟩ => exact h0 | ⟨1, _⟩ => exact h1)
  subst hi
  rfl

end Cert.NodeUpdate

end
-- ==== Proof.ReferenceValue.lean ====
/-
  The reference's result is the node update of its own aggregated features.

  After the gather and the scatter-add the reference takes the product of the aggregated features with the TRANSPOSED
  weight (a `dot_general` contracting the features' axis 1 with the transposed weight's axis 0), adds the bias broadcast
  along the nodes, and takes the maximum with zero. Read at an index (i0, i1): the product is the sum over k of
  agg[i0, k] times the transposed weight at [k, i1], which is W[i1, k]; the bias is b[i1]; the zero constant's word is
  the real zero. That is `NodeUpdate.out` of the aggregated features, the weight and the bias.
-/
import proofs.«108947_j61418032333373_1_alg».proof.Proof.Gen.ReferenceIdeal.Read
import proofs.«108947_j61418032333373_1_alg».proof.Proof.NodeUpdate

noncomputable section

namespace Cert.ReferenceIdeal.NodeValue

open Cert.ReferenceIdeal Cert.ReferenceIdeal.Read Idealize.ShloMosaic Idealize.ShloMosaic.ValueIdx

/-- The left operand of the product is read at (i0, k). -/
theorem lhs_index (i : S100000x128.Idx) (k : Fin 128) :
    lidx_main_v11 i k = ix2 (⟨(i 0).val, (i 0).isLt⟩ : Fin 100000) k :=
  funext fun a => Fin.ext (by match a with | ⟨0, _⟩ => rfl | ⟨1, _⟩ => rfl)

/-- The right operand, the transposed weight at (k, i1), is the weight at (i1, k). -/
theorem rhs_index (i : S100000x128.Idx) (k : Fin 128) :
    idx_main_v10 (ridx_main_v11 i k) = ix2 (⟨(i 1).val, (i 1).isLt⟩ : Fin 128) k :=
  funext fun a => Fin.ext (by match a with | ⟨0, _⟩ => rfl | ⟨1, _⟩ => rfl)

/-- The bias, broadcast to a row and then along the nodes, is read at i1. -/
theorem bias_index (i : S100000x128.Idx) :
    idx_main_v12 (idx_main_v13 i) = ix1 (⟨(i 1).val, (i 1).isLt⟩ : Fin 128) :=
  funext fun a => Fin.ext (by match a with | ⟨0, _⟩ => rfl)

/-- The reference's last stage is the node update of its scatter-add stage. -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v15 (F := Ideal) x0 x1 x2 x3 x4 = Cert.NodeUpdate.out (val_main_v9 (F := Ideal) x0 x1 x2) x3 x4 := by
  funext i
  rw [val_main_v15_apply, val_main_v14_apply, val_main_v11_apply, val_main_v13_apply, val_main_v12_apply,
    val_main_call0_v0_apply, val_main_call0_cst_apply]
  simp only [val_main_v10_apply, lhs_index, rhs_index, bias_index, Ideal.maximumf_def, Ideal.addf_def, Ideal.ofBits_def,
    Ideal.ofBits_zero_f32]
  rfl

end Cert.ReferenceIdeal.NodeValue

end
-- ==== Proof.KernelPayload.lean ====
/-
  What the kernel body stores, read at one index of its 2000-by-128 block.

  The body loads a block `x` of 2000 rows of aggregated features, the whole transposed weight `w` (128 by 128, input
  feature by output feature) and the bias `v` as one row of 128. It narrows `x` to the 16-bit format (the identity on
  extended reals), multiplies it with `w` into a zero accumulator, adds the bias row broadcast down the 2000 rows, and
  stores the maximum with zero. At row `p`, column `q`:

      max (∑ k, x[p, k] * w[k, q] + v[0, q]) 0.

  The matrix product contracts `x`'s axis 1 with `w`'s axis 0; over the one contracted axis of extent 128 the sum is
  re-indexed by `Fin 128`.
-/
import proofs.«108947_j61418032333373_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The matrix product at an index -/

theorem lhs_axis0 (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r
theorem rhs_axis0 (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r
theorem rhs_axis1 (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a 2000-by-128 block with a 128-by-128 matrix into a zero accumulator, at row `p`, column `q`: the sum
    over the 128 contracted positions of the block at (p, k) times the matrix at (k, q). -/
theorem matmul_at {φ₁ φ₂ : FTy} (a : FVec Ideal S2000x128 φ₁) (w : FVec Ideal S128x128 φ₂) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The bias row broadcast down the rows -/

/-- A row of 128 broadcast to 2000 rows is read at its one row, same column. -/
theorem bias_at {α : Type} (v : S1x128.Idx → α) (p : Fin 2000) (q : Fin 128) :
    broadcastTo S2000x128 v broadcasts_S1x128_S2000x128 (ix2 p q) = v (ix2 (0 : Fin 1) q) :=
  broadcastTo_apply v broadcasts_S1x128_S2000x128 (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-! ## The payload -/

/-- The stored value at row `p`, column `q` of the block. -/
theorem pay_at (x : Vec Ideal S2000x128 .f32) (w : Vec Ideal S128x128 .bf16) (v : Vec Ideal S1x128 .f32) (p : Fin 2000) (q : Fin 128) :
    k0_pay1 (F := Ideal) x w v (ix2 p q) = max ((∑ k : Fin 128, x (ix2 p k) * w (ix2 k q)) + v (ix2 (0 : Fin 1) q)) 0 := by
  unfold k0_pay1
  rw [maximumf_apply, addf_apply, broadcast_apply, shapeCast_self, shapeCast_self, shapeCast_self, matmul_at, bias_at]
  simp only [truncf_apply]
  show max _ (Ideal.ofBits .f32 0x00000000#32) = _
  rw [Ideal.ofBits_zero_f32]

end Cert.KernelIdeal.Payload

end
-- ==== Proof.KernelOperands.lean ====
/-
  What the kernel's one region finds in its three operand arrays, as functions of the program's arguments.

  Before the region the program computes, by plain array operations,
   * the aggregated features: for every edge the source node's feature row is gathered (a negative source index first
     shifted up by the number of nodes) and added into the row of the edge's destination node, starting from zeros;
   * the transposed weight, narrowed to the 16-bit format (the identity on extended reals): its entry (k, q) is W[q, k];
   * the bias as one row of 128: its entry (0, q) is b[q].
  The aggregated features are kept as ONE term of the three arguments it depends on (`agg`): the other program builds
  the same term, and nothing below looks inside it.
-/
import proofs.«108947_j61418032333373_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated node features, from the feature array and the edges' source and destination indices. -/
def agg (x0 : (⟨S100000x128, .f32⟩ : BufTy).Contents (Elt Ideal)) (x1 x2 : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x2)
    (Host.gather gather_S100000x128_S1600000x1_S1600000x128_1_0_n_n_0_1_1128 x0
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- The region's first operand is the aggregated features of the arguments. -/
theorem V_agg (c : Dev nD) :
    (V m c main_v9 : S100000x128.Idx → EReal)
      = agg (m ((c : Thread nD τ).loc main_arg0)) (m ((c : Thread nD τ).loc main_arg1)) (m ((c : Thread nD τ).loc main_arg2)) := by
  dsimp only [V, hostOps0]; after_results; rfl

/-- The region's second operand is the transposed weight. -/
theorem V_weight (c : Dev nD) :
    (V m c main_v11 : S128x128.Idx → EReal)
      = truncf (F := Ideal) .bf16 (transpose S128x128 [1, 0] (m ((c : Thread nD τ).loc main_arg3)) transposes_S128x128_S128x128_1_0) bitsLt_bf16_f32 := by
  dsimp only [V, hostOps0]; after_results

/-- The region's third operand is the bias laid out as one row. -/
theorem V_bias (c : Dev nD) :
    (V m c main_v12 : S1x128.Idx → EReal) = shapeCast S1x128 (m ((c : Thread nD τ).loc main_arg4)) shapeCasts_S128_S1x128 := by
  dsimp only [V, hostOps0]; after_results; rfl

/-! ## The same three facts, for the arrays as the region's windows name them

The windows' arrays are these three buffers, so the equalities above hold of them as they stand (whole arrays; never
read at an index here). -/

theorem window_agg (c : Dev nD) :
    V m c (Pipeline.arrRef spec0 0)
      = agg (m ((c : Thread nD τ).loc main_arg0)) (m ((c : Thread nD τ).loc main_arg1)) (m ((c : Thread nD τ).loc main_arg2)) :=
  V_agg m c

theorem window_weight (c : Dev nD) :
    V m c (Pipeline.arrRef spec0 1)
      = truncf (F := Ideal) .bf16 (transpose S128x128 [1, 0] (m ((c : Thread nD τ).loc main_arg3)) transposes_S128x128_S128x128_1_0) bitsLt_bf16_f32 :=
  V_weight m c

theorem window_bias (c : Dev nD) :
    V m c (Pipeline.arrRef spec0 2) = shapeCast S1x128 (m ((c : Thread nD τ).loc main_arg4)) shapeCasts_S128_S1x128 :=
  V_bias m c

/-! ## The two re-laid operands read at an index, for any weight and any bias -/

/-- Entry (k, q) of the transposed, narrowed weight is W[q, k]. -/
theorem weight_at (W : FVec Ideal S128x128 .f32) (k q : Fin 128) :
    truncf (F := Ideal) .bf16 (transpose S128x128 [1, 0] W transposes_S128x128_S128x128_1_0) bitsLt_bf16_f32 (ix2 k q) = W (ix2 q k) := by
  rw [truncf_apply]
  exact transpose_apply [1, 0] W transposes_S128x128_S128x128_1_0 (ix2 k q) (ix2 q k) (fun b => match b with
    | ⟨0, _⟩ => rfl
    | ⟨1, _⟩ => rfl)

/-- Entry (0, q) of the bias laid out as one row is b[q]. -/
theorem bias_at (b : FVec Ideal S128 .f32) (q : Fin 128) :
    shapeCast S1x128 b shapeCasts_S128_S1x128 (ix2 (0 : Fin 1) q) = b (ix1 q) := by
  refine shapeCast_apply b shapeCasts_S128_S1x128 (ix2 (0 : Fin 1) q) (ix1 q) ?_
  rw [Shape.rowMajor_val_one, Shape.rowMajor_val_two]
  show q.val = 0 * 128 + q.val
  omega

end Cert.KernelIdeal.Operands

end
-- ==== Proof.KernelBlocks.lean ====
/-
  The region's blocks, read where the arrays hold them, for ANY contents of the arrays.

  The region walks the 100000 rows in 50 blocks of 2000. At point `t` the features' window and the result's window sit
  at block row `t` (rows 2000t … 2000t + 1999); the weight's and the bias' windows are always at their one block, which
  is the whole operand. A block's coordinate on an axis is the block index times the block's extent plus the
  coordinate inside the block. Every statement here is about an arbitrary array `A`: which rows a block shows does not
  depend on what the array holds.
-/
import proofs.«108947_j61418032333373_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

/-- Where each window's block sits at point `t`: the features and the result at block row `t`, the weight and the bias
    always at their one block (decided over the 50 points). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 50 points. -/
theorem point_lt (t : Fin cfg0.N) : t.val < 50 :=
  Nat.lt_of_lt_of_eq (t.isLt : t.val < grid0.N) N_0

/-- Row `p` of the features' block at point `t` is row `P = 2000t + p` of the features' array. -/
theorem read_features (c : Dev nD) (t : Fin cfg0.N) (A : Buf (Elt Ideal) ((cfg0.win 0).arr.view.loc (c.tc : Thread nD τ)))
    (p : Fin 2000) (k : Fin 128) (P : Fin 100000) (hP : P.val = 2000 * t.val + p.val) :
    ((cfg0.win 0).blk t).view.read (Elt Ideal) A (ix2 p k) = A (ix2 P k) := by
  obtain ⟨e0, e1, -⟩ := block_index t
  rw [View.read_apply]
  refine congrArg A (funext fun a => Fin.ext ?_)
  match a with
  | ⟨0, _⟩ => show win0_0.index t (0 : Fin 2) * 2000 + 1 * p.val = P.val; rw [e0, hP]; omega
  | ⟨1, _⟩ => show win0_0.index t (1 : Fin 2) * 128 + 1 * k.val = k.val; rw [e1]; omega

/-- The weight's block at any point is the whole operand. -/
theorem read_weight (c : Dev nD) (t : Fin cfg0.N) (A : Buf (Elt Ideal) ((cfg0.win 1).arr.view.loc (c.tc : Thread nD τ)))
    (k q : Fin 128) : ((cfg0.win 1).blk t).view.read (Elt Ideal) A (ix2 k q) = A (ix2 k q) := by
  obtain ⟨-, -, e2, e3, -⟩ := block_index t
  rw [View.read_apply]
  refine congrArg A (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias' block at any point is the whole operand. -/
theorem read_bias (c : Dev nD) (t : Fin cfg0.N) (A : Buf (Elt Ideal) ((cfg0.win 2).arr.view.loc (c.tc : Thread nD τ)))
    (q : Fin 128) : ((cfg0.win 2).blk t).view.read (Elt Ideal) A (ix2 (0 : Fin 1) q) = A (ix2 (0 : Fin 1) q) := by
  obtain ⟨-, -, -, -, e4, e5, -⟩ := block_index t
  rw [View.read_apply]
  refine congrArg A (funext fun a => Fin.ext ?_)
  match a with
  | ⟨0, _⟩ => show win0_2.index t (0 : Fin 2) * 1 + 1 * 0 = 0; rw [e4]
  | ⟨1, _⟩ => show win0_2.index t (1 : Fin 2) * 128 + 1 * q.val = q.val; rw [e5]; omega

/-- A stored block `y` whose row `p` is row `2000t + p` of an array `R`, cut to the result's window at point `t`, is
    block `t` of `R`. -/
theorem cut_eq_read (c : Dev nD) (t : Fin cfg0.N) (ht : t.val < 50) (y : Vec Ideal S2000x128 .f32)
    (R : Buf (Elt Ideal) ((cfg0.win 3).arr.view.loc (c.tc : Thread nD τ)))
    (h : ∀ (p : Fin 2000) (q : Fin 128), y (ix2 p q) = R (ix2 (⟨2000 * t.val + p.val, by have := p.isLt; omega⟩ : Fin 100000) q)) :
    (cfg0.win 3).cut (grid0.coords t) y = ((cfg0.win 3).blk t).view.read (Elt Ideal) R := by
  obtain ⟨-, -, -, -, -, -, e6, e7⟩ := block_index t
  refine funext fun (j : S2000x128.Idx) => ?_
  obtain ⟨p, q, rfl⟩ : ∃ (p : Fin 2000) (q : Fin 128), j = ix2 p q := ⟨j 0, j 1, eq_ix2 j⟩
  rw [View.read_apply]
  show y (ix2 p q) = R (((cfg0.win 3).blk t).view.emb (ix2 p q))
  rw [h p q]
  refine congrArg R (funext fun a => Fin.ext ?_)
  have hp := p.isLt
  match a with
  | ⟨0, _⟩ => show 2000 * t.val + p.val = win0_3.index t (0 : Fin 2) * 2000 + 1 * p.val; rw [e6]; omega
  | ⟨1, _⟩ => show q.val = win0_3.index t (1 : Fin 2) * 128 + 1 * q.val; rw [e7]; omega

end Cert.KernelIdeal.Blocks

end
-- ==== Proof.KernelCover.lean ====
/-
  The 50 result blocks cover the result array.

  Point `t`'s result block is rows 2000t … 2000t + 1999, all 128 columns. A row `r` below 100000 has its quotient
  `r / 2000` below 50 and lies in that point's block, and every point writes its block back.
-/
import proofs.«108947_j61418032333373_1_alg».proof.Proof.Gen.KernelIdeal.Frame
import proofs.«108947_j61418032333373_1_alg».proof.Proof.KernelBlocks

set_option maxRecDepth 16384

noncomputable section

namespace Cert.KernelIdeal.Cover

open Cert.KernelIdeal Cert.KernelIdeal.Gen Idealize.ShloMosaic Idealize.ShloMosaic.TcCoe Idealize.SL.Sem

/-- An index is in point `t`'s block iff each coordinate is in the block's range on its axis. -/
theorem mem_block (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v13).slice (win0_3.rect t)).set ↔ _
  rw [View.set_slice_whole, Rect.mem_set_unit]
  exact Iff.rfl

/-- Row `r` lies in the block of point `r / 2000`, which is written back. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨-, -, -, -, -, -, e6, e7⟩ := Blocks.block_index ⟨(i 0).val / 2000, hlt⟩
  refine ⟨⟨(i 0).val / 2000, hlt⟩, flush0_3 _, ?_⟩
  rw [mem_block]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [e7]
    omega

end Cert.KernelIdeal.Cover

end
-- ==== Proof.KernelArray.lean ====
/-
  The kernel's result array is the node update of the aggregated features.

  At point `t` the region is given rows 2000t … 2000t + 1999 of the aggregated features, the whole transposed weight and
  the whole bias row, and writes back rows 2000t … 2000t + 1999 of the result. What it stores at row `p`, column `q` of
  its block is max (∑ k, x[p, k] * w[k, q] + v[0, q]) 0 of its three blocks; with x's row `p` the features' row
  2000t + p, w[k, q] = W[q, k] and v[0, q] = b[q], that is the node update at row 2000t + p, column `q`. So point `t`
  writes back block `t` of the node update, the 50 blocks cover the array, and the array ends holding the node update.
-/
import proofs.«108947_j61418032333373_1_alg».proof.Proof.Gen.KernelIdeal.Value
import proofs.«108947_j61418032333373_1_alg».proof.Proof.NodeUpdate
import proofs.«108947_j61418032333373_1_alg».proof.Proof.KernelPayload
import proofs.«108947_j61418032333373_1_alg».proof.Proof.KernelOperands
import proofs.«108947_j61418032333373_1_alg».proof.Proof.KernelBlocks
import proofs.«108947_j61418032333373_1_alg».proof.Proof.KernelCover

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The node update of the arguments: what the result array is to hold. -/
def result (c : Dev nD) : S100000x128.Idx → EReal :=
  Cert.NodeUpdate.out
    (Operands.agg (m ((c : Thread nD τ).loc main_arg0)) (m ((c : Thread nD τ).loc main_arg1)) (m ((c : Thread nD τ).loc main_arg2)))
    (m ((c : Thread nD τ).loc main_arg3)) (m ((c : Thread nD τ).loc main_arg4))

theorem origin : (![0, 0] : Fin 2 → Nat) = fun _ => 0 := funext fun a => by fin_cases a <;> rfl

/-- What the body stores at row `p`, column `q` at point `t` is the node update at row 2000t + p, column `q`. -/
theorem stored_at (c : Dev nD) (t : Fin cfg0.N) (ht : t.val < 50) (p : Fin 2000) (q : Fin 128) :
    k0_pay1 (F := Ideal) (iblk m c 0 t) (iblk m c 1 t) (iblk m c 2 t) (ix2 p q)
      = result m c (ix2 (⟨2000 * t.val + p.val, by have := p.isLt; omega⟩ : Fin 100000) q) := by
  refine (Payload.pay_at _ _ _ p q).trans ?_
  unfold result
  rw [Cert.NodeUpdate.out_ix2]
  unfold Cert.NodeUpdate.entry iblk
  rw [Operands.window_agg m c, Operands.window_weight m c, Operands.window_bias m c]
  simp only [Blocks.read_features c t _ p _ (⟨2000 * t.val + p.val, by have := p.isLt; omega⟩ : Fin 100000) rfl,
    Blocks.read_weight c t, Blocks.read_bias c t]
  rw [Operands.bias_at]
  conv_lhs => enter [1, 1, 2, k]; rw [Operands.weight_at]

/-- Point `t` writes back block `t` of the node update. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S2000x128) origin, View.ld_unit_zero (S := S128x128) origin, View.ld_unit_zero (S := S1x128) origin]
  exact Blocks.cut_eq_read c t (Blocks.point_lt t) _ _ (fun p q => stored_at m c t (Blocks.point_lt t) p q)

/-- The result array after the run is the node update of the arguments: every point writes its block of it, and the
    blocks cover the array. -/
theorem final (c : Dev nD) : (dats m 0 c).arrAt 3 cfg0.N = result m c :=
  (dats m 0 c).arrAt_eq_of_cover 3 (result m c) (fun t _ => flushed_eq m c t) Cover.cover

/-- Every weakly fair execution of the kernel program ends with the result array at the node update of the arguments and
    the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.lean ====
/-
  One graph-convolution layer: gather each edge's source feature row, add it into the destination node's row, then
  apply a linear map with bias and cut off the negative part.

  Both programs compute the aggregated features by the SAME gather and scatter-add of the same arguments; they differ
  only in the node update. The reference takes the product of the aggregated features with the transposed weight, adds
  the bias and takes the maximum with zero, all on whole arrays. The kernel walks the rows in 50 blocks of 2000, narrows
  its operands to a 16-bit format for the matrix unit (the identity on extended reals), multiplies into a zero
  accumulator, adds the bias row and stores the maximum with zero. Index by index both are

      max (∑ k, agg[p, k] * W[q, k] + b[q]) 0,

  the same sum over the same 128 positions, so no law of the extended reals beyond 0 + x = x is used and the
  precondition is never opened. The idealization rewrote nothing, so the kernel's idealization is its own text.
-/
import proofs.«108947_j61418032333373_1_alg».proof.Defs
import proofs.«108947_j61418032333373_1_alg».proof.Proof.Gen.Kernel
import proofs.«108947_j61418032333373_1_alg».proof.Proof.Gen.Kernel.Skeleton
import proofs.«108947_j61418032333373_1_alg».proof.Proof.Gen.Kernel.Launch
import proofs.«108947_j61418032333373_1_alg».proof.Proof.Gen.Kernel.Points
import proofs.«108947_j61418032333373_1_alg».proof.Proof.Gen.Kernel.Frame
import proofs.«108947_j61418032333373_1_alg».proof.Proof.Gen.KernelIdeal
import proofs.«108947_j61418032333373_1_alg».proof.Proof.Gen.KernelIdeal.Skeleton
import proofs.«108947_j61418032333373_1_alg».proof.Proof.Gen.KernelIdeal.Launch
import proofs.«108947_j61418032333373_1_alg».proof.Proof.Gen.KernelIdeal.Points
import proofs.«108947_j61418032333373_1_alg».proof.Proof.Gen.KernelIdeal.Frame
import proofs.«108947_j61418032333373_1_alg».proof.Proof.Gen.ReferenceIdeal
import proofs.«108947_j61418032333373_1_alg».proof.Proof.Gen.Pre_finite_inputs
import proofs.«108947_j61418032333373_1_alg».proof.Proof.Gen.KernelIdeal.Value
import proofs.«108947_j61418032333373_1_alg».proof.Proof.Gen.ReferenceIdeal.Run
import proofs.«108947_j61418032333373_1_alg».proof.Proof.Gen.ReferenceIdeal.Read
import proofs.«108947_j61418032333373_1_alg».proof.Proof.NodeUpdate
import proofs.«108947_j61418032333373_1_alg».proof.Proof.ReferenceValue
import proofs.«108947_j61418032333373_1_alg».proof.Proof.KernelArray
import Idealize.ShloMosaic.Adequacy
import Idealize.ShloMosaic.Init

noncomputable section

namespace Cert.Proof

open Idealize.ShloMosaic Idealize.ShloMosaic.TcCoe Idealize.SL.Sem

/-- The two programs build the aggregated features by the same operations, with the same dimension records and the
    same constants, of the same three arguments. -/
theorem same_aggregate (x0 : (⟨Cert.ReferenceIdeal.S100000x128, .f32⟩ : BufTy).Contents (Elt Ideal))
    (x1 x2 : (⟨Cert.ReferenceIdeal.S1600000, .i32⟩ : BufTy).Contents (Elt Ideal)) :
    Cert.ReferenceIdeal.Read.val_main_v9 (F := Ideal) x0 x1 x2 = Cert.KernelIdeal.Operands.agg x0 x1 x2 := rfl

theorem frame_kernel : Cert.frame_Kernel := fun m ρ _ => Cert.Kernel.Gen.frame m ρ

theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the node update of the aggregated features of the arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v15_eq _ _ _ _ _).trans ?_
  refine (Cert.ReferenceIdeal.NodeValue.result_eq _ _ _ _ _).trans ?_
  rw [same_aggregate]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
